-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64 : Shape := ⟨1, ![64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S8192x64 .f32) (main_arg1 : FVec F S8192x64 .f32) (main_arg2 : FVec F S64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S8192x64 : Shape := ⟨2, ![8192, 64]⟩
abbrev S64 : Shape := ⟨1, ![64]⟩
abbrev S8192x8192 : Shape := ⟨2, ![8192, 8192]⟩
abbrev S1024x64 : Shape := ⟨2, ![1024, 64]⟩
abbrev S1024x1024 : Shape := ⟨2, ![1024, 1024]⟩
abbrev S1x64 : Shape := ⟨2, ![1, 64]⟩
abbrev S1024 : Shape := ⟨1, ![1024]⟩
abbrev S1024x1 : Shape := ⟨2, ![1024, 1]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S8192x8192, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S64, .f32⟩
  | .local _ .vmem, ⟨5, _⟩ => ⟨S1024x1024, .f32⟩
  | .local _ .vmem, ⟨6, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1024x64_S1024x64_0_0 : ∀ a, (![0, 0] : Fin 2 → Nat) a + S1024x64.size a ≤ S1024x64.size a
  h_S1024x64 : 0 < S1024x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  reduces_S1024x64_S1024 : S1024x64.Reduces [1] S1024
  shapeCasts_S1024_S1024x1 : S1024.ShapeCasts S1024x1
  bitsLt_bf16_f32 : FTy.bits .bf16 < FTy.bits .f32
  transposes_S1024x1_p1_0_S1x1024 : S1024x1.Transposes [1, 0] S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S1024x64_S1024x1024_1_1_0_0_n_n_wf : DotDims.WF S1024x64 S1024x64 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .f32 = 32 ∨ (Rect.block (s := S8192x8192) S1024x1024.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x64 : Shape := ⟨2, ![8192, 64]⟩
abbrev S64 : Shape := ⟨1, ![64]⟩
abbrev S1x64 : Shape := ⟨2, ![1, 64]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 30
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S64, .f32⟩
  | .hbm, ⟨3, _⟩ => ⟨S1x64, .f32⟩
  | .hbm, ⟨4, _⟩ => ⟨S8192x64, .f32⟩
  | .hbm, ⟨5, _⟩ => ⟨S8192x64, .f32⟩
  | .hbm, ⟨6, _⟩ => ⟨S8192x64, .f32⟩
  | .hbm, ⟨7, _⟩ => ⟨S_, .f32⟩
  | .hbm, ⟨8, _⟩ => ⟨S8192, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S8192x64, .f32⟩
  | .hbm, ⟨13, _⟩ => ⟨S_, .f32⟩
  | .hbm, ⟨14, _⟩ => ⟨S8192, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S8192x8192, .f32⟩
  | .hbm, ⟨19, _⟩ => ⟨S8192x1, .f32⟩
  | .hbm, ⟨20, _⟩ => ⟨S1x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S8192x8192, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  reducesTo_S8192x64_S8192_d1 : S8192x64.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x64_S8192x64_S8192x8192_1_1_0_0_n_n_wf : DotDims.WF S8192x64 S8192x64 S8192x8192 [1] [1] [0] [0] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf

class Facts : Prop extends Facts₀ where

variable [Facts]
-- ==== Proof.ColumnForms.lean ====
/- A row sum kept as a column: the layout steps between a length-a vector and the a x 1 column that holds it, and that
   column spread over the columns of an a x b matrix; and the sum over the second axis of an a x b matrix read at a row as
   the sum of that row's entries. -/
import Idealize.ShloMosaic.Lib.ValueIdx
import Idealize.ShloMosaic.Lib.ValueLayout
import Idealize.ShloMosaic.PureOps.Ideal.Laws

noncomputable section

open scoped BigOperators

namespace Cert.ColumnForms

open Idealize.ShloMosaic Idealize.ShloMosaic.ValueIdx

variable {α : Type}

/-- A length-a vector cast to the column a x 1 reads, at (i, 0), the vector at i: the row-major position of (i, 0) in
    a x 1 is i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column a x 1 spread to a x b reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Inserting the coordinate k on the dropped second axis over the row index p gives (p, k). -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- The sum over the second axis of an a x b matrix of extended reals, from the zero word, read at row p: the sum of
    the row's b entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

/-- The host's sum over the second axis from an initial value, read at row p: the initial value plus the sum of the
    row's entries. -/
theorem hostRowSum_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) :=
  (Ideal.hostReduceAdd_single h' h x init (ix1 p)).trans
    (congrArg (init + ·) (Finset.sum_congr rfl fun k _ => congrArg x (lift_row h p k)))

end Cert.ColumnForms

end
-- ==== Proof.LibDotReadRhsT.lean ====
/- A matrix product's contraction sum re-indexed by the contracted coordinate, for the product of an m x k matrix by
   the transpose of an n x k matrix: both operands are contracted along their second axis. -/
import Idealize.ShloMosaic.Lib.ValueIdx
import Idealize.ShloMosaic.PureOps.Ideal.Laws

noncomputable section

open scoped BigOperators

namespace Cert.DotReadRhsT

open Idealize.ShloMosaic Idealize.ShloMosaic.ValueIdx

/-- The right operand transposed: the contraction at (a, b) runs over A (a, c) * B (b, c). -/
theorem sum_contr_rhsT {m k n : Nat}
    (w : DotDims.WF ⟨2, ![m, k]⟩ ⟨2, ![n, k]⟩ ⟨2, ![m, n]⟩ [1] [1] [0] [0] [] [])
    (A : (⟨2, ![m, k]⟩ : Shape).Idx → EReal) (B : (⟨2, ![n, k]⟩ : Shape).Idx → EReal) (a : Fin m) (b : Fin n) :
    ∑ q : (⟨[1], [1], [0], [0], [], [], w⟩ : DotDims ⟨2, ![m, k]⟩ ⟨2, ![n, k]⟩ ⟨2, ![m, n]⟩).contr.Idx,
        A ((⟨[1], [1], [0], [0], [], [], w⟩ : DotDims ⟨2, ![m, k]⟩ ⟨2, ![n, k]⟩ ⟨2, ![m, n]⟩).lhsIdx (ix2 a b) q)
          * B ((⟨[1], [1], [0], [0], [], [], w⟩ : DotDims ⟨2, ![m, k]⟩ ⟨2, ![n, k]⟩ ⟨2, ![m, n]⟩).rhsIdx (ix2 a b) q)
      = ∑ c : Fin k, A (ix2 a c) * B (ix2 b c) := by
  rw [← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.DotReadRhsT

end
-- ==== Proof.GaussEntry.lean ====
/- One entry of the weighted Gaussian kernel matrix, through the expansion of the weighted squared distance:
   for a row u of the first point set, a row v of the second and weights g over the d coordinates,
     exp (-((sum_k g k * u k * u k + sum_k g k * v k * v k) - 2 * sum_k u k * (g k * v k))).
   Both programs compute exactly this expression, product by product in this order, so no law of the extended reals
   beyond 0 - a = -a and 0 + a = a is needed to join them. -/
import Idealize.ShloMosaic.PureOps.Ideal

noncomputable section

open scoped BigOperators

namespace Cert.GaussEntry

open Idealize.ShloMosaic

/-- The f32 word of 2.0, read on the extended reals; it is the same word in both programs and is never evaluated. -/
def two : EReal := Ideal.ofBits .f32 0x40000000#32

/-- The weighted squared norm of a row: the sum over the coordinates of (g k * u k) * u k. -/
def wnorm {d : ℕ} (g u : Fin d → EReal) : EReal := ∑ k : Fin d, g k * u k * u k

/-- The cross term: the sum over the coordinates of u k * (g k * v k). -/
def cross {d : ℕ} (g u v : Fin d → EReal) : EReal := ∑ k : Fin d, u k * (g k * v k)

/-- The matrix entry for rows u and v under weights g. -/
def entry {d : ℕ} (g u v : Fin d → EReal) : EReal :=
  Ideal.exp (-((wnorm g u + wnorm g v) - two * cross g u v))

end Cert.GaussEntry

end
-- ==== Proof.BlockEntry.lean ====
/- What the body stores, read at one place of the 1024 x 1024 output block: at (p, q) it is the matrix entry for
   row p of the block of the first point set and row q of the block of the second, under the weights.
   The steps: the weights spread over the rows of a block; a row's weighted squared norm, kept as a column; that
   column turned into a row by the transpose; the product of the first block with the weighted second block,
   contracted along the coordinates, into a zero accumulator; and the final expression 0 - ((a + b) - 2 * c) under exp,
   where 0 - t is -t on the extended reals. -/
import proofs.«160034_j65481071398073_1_alg».proof.Proof.Gen.KernelIdeal.Skeleton
import proofs.«160034_j65481071398073_1_alg».proof.Proof.ColumnForms
import proofs.«160034_j65481071398073_1_alg».proof.Proof.LibDotReadRhsT
import proofs.«160034_j65481071398073_1_alg».proof.Proof.GaussEntry
import Idealize.ShloMosaic.Lib.ValueIdx
import Idealize.ShloMosaic.Lib.ValueLayout
import Idealize.ShloMosaic.PureOps.Ideal.Laws

noncomputable section

open scoped BigOperators

namespace Cert.KernelIdeal.BlockEntry

open Cert.KernelIdeal Cert.KernelIdeal.Gen Idealize.ShloMosaic Idealize.ShloMosaic.ValueIdx
open Cert.GaussEntry Cert.ColumnForms

/-- The weights as a 1 x 64 row spread over the 1024 rows of a block. -/
abbrev spread (x2 : FVec Ideal S64 .f32) : FVec Ideal S1024x64 .f32 :=
  broadcastTo S1024x64 (shapeCast S1x64 x2 shapeCasts_S64_S1x64) broadcasts_S1x64_S1024x64

/-- At (p, k) the spread weights are the weight of coordinate k. -/
theorem spread_apply (x2 : FVec Ideal S64 .f32) (p : Fin 1024) (k : Fin 64) : spread x2 (ix2 p k) = x2 (ix1 k) :=
  (broadcastTo_1b_ab_apply (shapeCast S1x64 x2 shapeCasts_S64_S1x64) broadcasts_S1x64_S1024x64 p k).trans
    (shapeCast_a_1a_apply x2 shapeCasts_S64_S1x64 0 k)

/-- The column of the rows' weighted squared norms of a block z: sum over the coordinates of ((g * z) * z), kept as
    1024 x 1. -/
abbrev normCol (x2 : FVec Ideal S64 .f32) (z : FVec Ideal S1024x64 .f32) : FVec Ideal S1024x1 .f32 :=
  shapeCast S1024x1 (multiReduction .add [1] S1024 (mulf (mulf (spread x2) z) z) 0x00000000#32 reduces_S1024x64_S1024 (.inl rfl) rfl)
    shapeCasts_S1024_S1024x1

/-- Its entry of row p is the weighted squared norm of row p of z. -/
theorem normCol_apply (x2 : FVec Ideal S64 .f32) (z : FVec Ideal S1024x64 .f32) (p : Fin 1024) (u : Fin 1) :
    normCol x2 z (ix2 p u) = wnorm (fun k => x2 (ix1 k)) (fun k => z (ix2 p k)) := by
  refine (shapeCast_a_a1_apply _ shapeCasts_S1024_S1024x1 p u).trans ?_
  refine (rowSum_apply (mulf (mulf (spread x2) z) z) reduces_S1024x64_S1024 (.inl rfl) rfl p).trans ?_
  unfold wnorm
  refine Finset.sum_congr rfl fun k _ => ?_
  show spread x2 (ix2 p k) * z (ix2 p k) * z (ix2 p k) = _
  rw [spread_apply]

/-- The product of a block a with a block b, both contracted along the 64 coordinates, into the zero accumulator, read
    at (p, q): the sum over k of a (p, k) * b (q, k); the narrowing to bf16 is the identity on the extended reals. -/
theorem prod_apply (a b : FVec Ideal S1024x64 .f32) (p q : Fin 1024) :
    matmul dot_S1024x64_S1024x64_S1024x1024_1_1_0_0_n_n none (truncf .bf16 a bitsLt_bf16_f32) (truncf .bf16 b bitsLt_bf16_f32)
        (constant S1024x1024 .f32 0x00000000#32) (ix2 p q)
      = ∑ k : Fin 64, a (ix2 p k) * b (ix2 q k) := by
  refine (Ideal.matmul_constant_zero_apply dot_S1024x64_S1024x64_S1024x1024_1_1_0_0_n_n none
    (truncf .bf16 a bitsLt_bf16_f32) (truncf .bf16 b bitsLt_bf16_f32) (ix2 p q)).trans ?_
  exact Cert.DotReadRhsT.sum_contr_rhsT dot_S1024x64_S1024x64_S1024x1024_1_1_0_0_n_n_wf
    (truncf .bf16 a bitsLt_bf16_f32) (truncf .bf16 b bitsLt_bf16_f32) p q

/-- The body's stored value is this expression of its three loads. -/
theorem pay_eq (x0 x1 : Vec Ideal S1024x64 .f32) (x2 : Vec Ideal S64 .f32) :
    k0_pay1 x0 x1 x2
      = exp (subf (broadcast S1024x1024 (Scalar.ofBits .f32 0x00000000#32))
          (subf (addf (broadcastTo S1024x1024 (normCol x2 x0) broadcasts_S1024x1_S1024x1024)
                  (broadcastTo S1024x1024 (transpose S1x1024 [1, 0] (normCol x2 x1) transposes_S1024x1_p1_0_S1x1024) broadcasts_S1x1024_S1024x1024))
            (mulf (broadcast S1024x1024 (Scalar.ofBits .f32 0x40000000#32))
              (matmul dot_S1024x64_S1024x64_S1024x1024_1_1_0_0_n_n none (truncf .bf16 x0 bitsLt_bf16_f32)
                (truncf .bf16 (mulf (spread x2) x1) bitsLt_bf16_f32) (constant S1024x1024 .f32 0x00000000#32))))) := rfl

/-- THE STORED BLOCK AT (p, q): the matrix entry for row p of the first block and row q of the second. -/
theorem pay_apply (x0 x1 : Vec Ideal S1024x64 .f32) (x2 : Vec Ideal S64 .f32) (p q : Fin 1024) :
    k0_pay1 x0 x1 x2 (ix2 p q)
      = entry (fun k => x2 (ix1 k)) (fun k => x0 (ix2 p k)) (fun k => x1 (ix2 q k)) := by
  rw [pay_eq]
  show Ideal.exp (Ideal.ofBits .f32 0x00000000#32
      - ((broadcastTo S1024x1024 (normCol x2 x0) broadcasts_S1024x1_S1024x1024 (ix2 p q)
            + broadcastTo S1024x1024 (transpose S1x1024 [1, 0] (normCol x2 x1) transposes_S1024x1_p1_0_S1x1024) broadcasts_S1x1024_S1024x1024 (ix2 p q))
          - Ideal.ofBits .f32 0x40000000#32
            * matmul dot_S1024x64_S1024x64_S1024x1024_1_1_0_0_n_n none (truncf .bf16 x0 bitsLt_bf16_f32)
                (truncf .bf16 (mulf (spread x2) x1) bitsLt_bf16_f32) (constant S1024x1024 .f32 0x00000000#32) (ix2 p q))) = _
  rw [broadcastTo_a1_ab_apply (normCol x2 x0) broadcasts_S1024x1_S1024x1024 p q,
    broadcastTo_1b_ab_apply (transpose S1x1024 [1, 0] (normCol x2 x1) transposes_S1024x1_p1_0_S1x1024) broadcasts_S1x1024_S1024x1024 p q,
    transpose_ix2_apply (normCol x2 x1) transposes_S1024x1_p1_0_S1x1024 (0 : Fin 1) q,
    normCol_apply, normCol_apply, prod_apply, Ideal.ofBits_zero_f32, zero_sub]
  unfold entry cross two
  refine congrArg (fun s => Ideal.exp (-((_ + _) - _ * s))) (Finset.sum_congr rfl fun k _ => ?_)
  show x0 (ix2 p k) * (spread x2 (ix2 q k) * x1 (ix2 q k)) = _
  rw [spread_apply]

end Cert.KernelIdeal.BlockEntry

end
-- ==== Proof.WholeMatrix.lean ====
/- From blocks to the whole matrix. The 8 x 8 grid writes the 8192 x 8192 result in 1024 x 1024 blocks: the point with
   block indices (I, J) reads rows I*1024 .. I*1024+1023 of the first point set, rows J*1024 .. J*1024+1023 of the second and
   all the weights, and writes block (I, J). So what a point writes back is the restriction to its block of ONE function of
   the three argument arrays, the matrix of entries; every place of the result lies in the block of the point
   (row / 1024, column / 1024); hence the result array ends holding that matrix. -/
import proofs.«160034_j65481071398073_1_alg».proof.Proof.Gen.KernelIdeal.Value
import proofs.«160034_j65481071398073_1_alg».proof.Proof.BlockEntry
import Idealize.ShloMosaic.Lib.Pipeline.Value
import Idealize.ShloMosaic.Lib.ValueIdx

set_option maxRecDepth 16384

noncomputable section

namespace Cert.KernelIdeal.WholeMatrix

open Cert.KernelIdeal Cert.KernelIdeal.Gen Cert.KernelIdeal.Value Idealize.ShloMosaic Idealize.ShloMosaic.TcCoe Idealize.SL.Sem
open Idealize.ShloMosaic.ValueIdx Cert.GaussEntry Cert.KernelIdeal.BlockEntry
open Idealize.ShloMosaic.Pipeline (Dat)

/-- The matrix of entries of two point sets under the weights: at (a, b) the entry for row a of X and row b of Y. -/
def gram (X Y : S8192x64.Idx → EReal) (g : S64.Idx → EReal) : S8192x8192.Idx → EReal := fun i =>
  entry (fun k => g (ix1 k)) (fun k => X (ix2 (⟨(i 0).val, (i 0).isLt⟩ : Fin 8192) k))
    (fun k => Y (ix2 (⟨(i 1).val, (i 1).isLt⟩ : Fin 8192) k))

theorem gram_apply (X Y : S8192x64.Idx → EReal) (g : S64.Idx → EReal) (i : S8192x8192.Idx) :
    gram X Y g i = entry (fun k => g (ix1 k)) (fun k => X (ix2 (⟨(i 0).val, (i 0).isLt⟩ : Fin 8192) k))
      (fun k => Y (ix2 (⟨(i 1).val, (i 1).isLt⟩ : Fin 8192) k)) := rfl

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a; rfl

/-- The index maps over the grid: the first input's block row is the output's block row, the second input's block row
    is the output's block column, the inputs' second block index and the weights' block index are 0, and the output's
    block indices are at most 7. -/
theorem block_indices : ∀ t : Fin cfg0.N,
    win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 1) = 0
    ∧ win0_3.index t (0 : Fin 2) ≤ 7
    ∧ win0_3.index t (1 : Fin 2) ≤ 7 :=
  (by decide +kernel : ∀ t : Fin grid0.N, _)

/-- Every pair of block indices is some point's. -/
theorem block_onto : ∀ (I : Fin 8) (J : Fin 8), ∃ t : Fin cfg0.N, win0_3.index t = ![I.val, J.val] :=
  (by decide +kernel : ∀ (I : Fin 8) (J : Fin 8), ∃ t : Fin grid0.N, win0_3.index t = ![I.val, J.val])

/-- The weights' block at a point is the weights. -/
theorem read_weights (c : Dev nD) (t : Fin cfg0.N) (k : Fin 64) :
    iblk m c 2 t (ix1 k) = V m c main_arg2 (ix1 k) := by
  obtain ⟨-, -, -, -, e4, -, -⟩ := block_indices t
  show V m c main_arg2 (((cfg0.win 2).blk t).view.emb (ix1 k)) = _
  refine congrArg (V m c main_arg2) (funext fun a => Fin.ext ?_)
  match a with
  | ⟨0, _⟩ =>
    show win0_2.index t (0 : Fin 1) * 64 + 1 * k.val = k.val
    omega

/-- Row p of the first input's block at a point is the row of the first array that the output block's place (p, q)
    lies in. -/
theorem read_first (c : Dev nD) (t : Fin cfg0.N) (p q : Fin 1024) (k : Fin 64) :
    iblk m c 0 t (ix2 p k)
      = V m c main_arg0 (ix2 (⟨(((cfg0.win 3).blk t).view.emb (ix2 p q) 0).val, (((cfg0.win 3).blk t).view.emb (ix2 p q) 0).isLt⟩ : Fin 8192) k) := by
  obtain ⟨e0, e1, -, -, -, -, -⟩ := block_indices t
  show V m c main_arg0 (((cfg0.win 0).blk t).view.emb (ix2 p k)) = _
  refine congrArg (V m c main_arg0) (funext fun a => Fin.ext ?_)
  match a with
  | ⟨0, _⟩ =>
    show win0_0.index t (0 : Fin 2) * 1024 + 1 * p.val = win0_3.index t (0 : Fin 2) * 1024 + 1 * p.val
    omega
  | ⟨1, _⟩ =>
    show win0_0.index t (1 : Fin 2) * 64 + 1 * k.val = k.val
    omega

/-- Row q of the second input's block at a point is the row of the second array that the output block's place (p, q)
    lies in by its column. -/
theorem read_second (c : Dev nD) (t : Fin cfg0.N) (p q : Fin 1024) (k : Fin 64) :
    iblk m c 1 t (ix2 q k)
      = V m c main_arg1 (ix2 (⟨(((cfg0.win 3).blk t).view.emb (ix2 p q) 1).val, (((cfg0.win 3).blk t).view.emb (ix2 p q) 1).isLt⟩ : Fin 8192) k) := by
  obtain ⟨-, -, e2, e3, -, -, -⟩ := block_indices t
  show V m c main_arg1 (((cfg0.win 1).blk t).view.emb (ix2 q k)) = _
  refine congrArg (V m c main_arg1) (funext fun a => Fin.ext ?_)
  match a with
  | ⟨0, _⟩ =>
    show win0_1.index t (0 : Fin 2) * 1024 + 1 * q.val = win0_3.index t (1 : Fin 2) * 1024 + 1 * q.val
    omega
  | ⟨1, _⟩ =>
    show win0_1.index t (1 : Fin 2) * 64 + 1 * k.val = k.val
    omega

/-- WHAT A POINT WRITES BACK is its block of the matrix of entries of the argument arrays. -/
theorem flushed_eq (c : Dev nD) (t : Fin cfg0.N) :
    (dats m 0 c).flushed 3 t
      = ((cfg0.win 3).blk t).view.read (Elt Ideal) (gram (V m c main_arg0) (V m c main_arg1) (V m c main_arg2)) := by
  rw [flushed3]
  unfold out0_3
  rw [View.canon_unit_zero off2]
  simp only [View.ld_unit_zero (S := S1024x64) off2, View.ld_unit_zero (S := S64) off1]
  funext j
  obtain ⟨p, q, rfl⟩ : ∃ (p : Fin 1024) (q : Fin 1024), j = ix2 p q := ⟨j 0, j 1, eq_ix2 j⟩
  show k0_pay1 (iblk m c 0 t) (iblk m c 1 t) (iblk m c 2 t) (ix2 p q)
    = gram (V m c main_arg0) (V m c main_arg1) (V m c main_arg2) (((cfg0.win 3).blk t).view.emb (ix2 p q))
  refine (pay_apply (iblk m c 0 t) (iblk m c 1 t) (iblk m c 2 t) p q).trans ?_
  rw [gram_apply]
  exact congr (congr (congrArg (entry (d := 64)) (funext fun k => read_weights m c t k))
    (funext fun k => read_first m c t p q k)) (funext fun k => read_second m c t p q k)

/-- A place of the result is in a point's block iff each coordinate is in the block's range on its axis. -/
theorem mem_block (t : Fin cfg0.N) (i : S8192x8192.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v0).slice (win0_3.rect t)).set ↔ _
  rw [View.set_slice_whole, Rect.mem_set_unit]
  exact Iff.rfl

/-- Every place of the result is in the block of the point with block indices (row / 1024, column / 1024). -/
theorem covered (i : S8192x8192.Idx) :
    ∃ t : Fin cfg0.N, (cfg0.win 3).flush t = true ∧ i ∈ ((cfg0.win 3).blk t).view.set := by
  have hi0 : (i 0).val < 8192 := (i 0).isLt
  have hi1 : (i 1).val < 8192 := (i 1).isLt
  obtain ⟨t, ht⟩ := block_onto ⟨(i 0).val / 1024, by omega⟩ ⟨(i 1).val / 1024, by omega⟩
  have q0 : win0_3.index t (0 : Fin 2) = (i 0).val / 1024 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 1024 ≤ (i 0).val ∧ (i 0).val < win0_3.index t (0 : Fin 2) * 1024 + 1024
    omega
  | ⟨1, _⟩ =>
    show win0_3.index t (1 : Fin 2) * 1024 ≤ (i 1).val ∧ (i 1).val < win0_3.index t (1 : Fin 2) * 1024 + 1024
    omega

/-- THE RESULT ARRAY after the run is the matrix of entries of the argument arrays as launched. -/
theorem final (c : Dev nD) :
    (dats m 0 c).arrAt 3 cfg0.N
      = gram (m ((c : Thread nD τ).loc main_arg0)) (m ((c : Thread nD τ).loc main_arg1)) (m ((c : Thread nD τ).loc main_arg2)) :=
  (dats m 0 c).arrAt_eq_of_cover 3 _ (fun t _ => flushed_eq m c t) covered

/-- The run, read: the result at the matrix of entries, the arguments unchanged. -/
theorem run : θ_run defs (onTc (τ := τ) (main (F := Ideal))) ⟨m, fun _ => 0, ρ⟩ fun r => ∀ c : Dev nD,
      r.2.mem ((c : Thread nD τ).loc main_v0)
        = gram (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.WholeMatrix

end
-- ==== Proof.RefEntry.lean ====
/- The reference's result read at one place: at (a, b) it is the matrix entry for row a of the first point set and
   row b of the second under the weights. Each stage of the host program is read at an index through its stage lemma:
   the weights spread over the rows, the two weighted squared norms as sums from the initial value 0, the contraction of
   the first array with the weighted second along the coordinates, and exp of the negated combination. -/
import proofs.«160034_j65481071398073_1_alg».proof.Proof.Gen.ReferenceIdeal.Read
import proofs.«160034_j65481071398073_1_alg».proof.Proof.GaussEntry
import Idealize.ShloMosaic.Lib.ValueIdx
import Idealize.ShloMosaic.PureOps.Ideal.Laws

noncomputable section

open scoped BigOperators

namespace Cert.ReferenceIdeal.RefEntry

open Cert.ReferenceIdeal Cert.ReferenceIdeal.Read Idealize.ShloMosaic Idealize.ShloMosaic.ValueIdx Cert.GaussEntry

variable (X Y : (⟨S8192x64, .f32⟩ : BufTy).Contents (Elt Ideal)) (g : (⟨S64, .f32⟩ : BufTy).Contents (Elt Ideal))

/-- The weights spread over the rows, in each of the three places the program spreads them: at (a, k) the weight of
    coordinate k. -/
theorem spread1_apply (a : Fin 8192) (k : Fin 64) : val_main_v1 (F := Ideal) g (ix2 a k) = g (ix1 k) := by
  rw [val_main_v1_apply, val_main_v0_apply]
  exact congrArg g (funext fun c => Fin.ext (by match c with | ⟨0, _⟩ => rfl))
theorem spread6_apply (a : Fin 8192) (k : Fin 64) : val_main_v6 (F := Ideal) g (ix2 a k) = g (ix1 k) := by
  rw [val_main_v6_apply, val_main_v5_apply]
  exact congrArg g (funext fun c => Fin.ext (by match c with | ⟨0, _⟩ => rfl))
theorem spread11_apply (a : Fin 8192) (k : Fin 64) : val_main_v11 (F := Ideal) g (ix2 a k) = g (ix1 k) := by
  rw [val_main_v11_apply, val_main_v10_apply]
  exact congrArg g (funext fun c => Fin.ext (by match c with | ⟨0, _⟩ => rfl))

/-- The weighted squared norm of row a of the first array: the host's sum from the initial value 0. -/
theorem normX_apply (a : Fin 8192) :
    val_main_v4 (F := Ideal) X g (ix1 a) = wnorm (fun k => g (ix1 k)) (fun k => X (ix2 a k)) := by
  rw [val_main_v4_apply]
  show Ideal.ofBits .f32 0x00000000#32 + _ = _
  rw [Ideal.ofBits_zero_f32, zero_add]
  unfold wnorm
  refine Finset.sum_congr rfl fun k _ => ?_
  have e : idx_main_v4 (ix1 a) k = ix2 a k :=
    funext fun c => Fin.ext (by match c with | ⟨0, _⟩ => rfl | ⟨1, _⟩ => rfl)
  rw [e, val_main_v3_apply, val_main_v2_apply, spread1_apply]
  rfl

/-- The weighted squared norm of row b of the second array. -/
theorem normY_apply (b : Fin 8192) :
    val_main_v9 (F := Ideal) Y g (ix1 b) = wnorm (fun k => g (ix1 k)) (fun k => Y (ix2 b k)) := by
  rw [val_main_v9_apply]
  show Ideal.ofBits .f32 0x00000000#32 + _ = _
  rw [Ideal.ofBits_zero_f32, zero_add]
  unfold wnorm
  refine Finset.sum_congr rfl fun k _ => ?_
  have e : idx_main_v9 (ix1 b) k = ix2 b k :=
    funext fun c => Fin.ext (by match c with | ⟨0, _⟩ => rfl | ⟨1, _⟩ => rfl)
  rw [e, val_main_v8_apply, val_main_v7_apply, spread6_apply]
  rfl

/-- The contraction of the first array with the weighted second along the coordinates, at (a, b). -/
theorem cross_apply (a b : Fin 8192) :
    val_main_v13 (F := Ideal) X Y g (ix2 a b) = cross (fun k => g (ix1 k)) (fun k => X (ix2 a k)) (fun k => Y (ix2 b k)) := by
  rw [val_main_v13_apply]
  unfold cross
  refine Finset.sum_congr rfl fun k _ => ?_
  have el : lidx_main_v13 (ix2 a b) k = ix2 a k :=
    funext fun c => Fin.ext (by match c with | ⟨0, _⟩ => rfl | ⟨1, _⟩ => rfl)
  have er : ridx_main_v13 (ix2 a b) k = ix2 b k :=
    funext fun c => Fin.ext (by match c with | ⟨0, _⟩ => rfl | ⟨1, _⟩ => rfl)
  rw [el, er, val_main_v12_apply, spread11_apply]
  rfl

/-- THE REFERENCE'S RESULT AT (a, b): the matrix entry for row a of the first array and row b of the second. -/
theorem result_apply (a b : Fin 8192) :
    val_main_v23 (F := Ideal) X Y g (ix2 a b)
      = entry (fun k => g (ix1 k)) (fun k => X (ix2 a k)) (fun k => Y (ix2 b k)) := by
  have e1 : idx_main_v14 (idx_main_v16 (ix2 a b)) = ix1 a :=
    funext fun c => Fin.ext (by match c with | ⟨0, _⟩ => rfl)
  have e2 : idx_main_v15 (idx_main_v17 (ix2 a b)) = ix1 b :=
    funext fun c => Fin.ext (by match c with | ⟨0, _⟩ => rfl)
  rw [val_main_v23_apply, val_main_v22_apply, val_main_v21_apply, val_main_v18_apply, val_main_v20_apply,
    val_main_v16_apply, val_main_v14_apply, val_main_v17_apply, val_main_v15_apply, val_main_v19_apply,
    e1, e2, normX_apply, normY_apply, cross_apply]
  rfl

end Cert.ReferenceIdeal.RefEntry

end
-- ==== Proof.lean ====
/- The weighted Gaussian kernel matrix of two point sets X, Y (8192 points each, 64 coordinates) under weights g:
     K (a, b) = exp (-((sum_k g k * X (a,k) * X (a,k) + sum_k g k * Y (b,k) * Y (b,k)) - 2 * sum_k X (a,k) * (g k * Y (b,k)))).
   The kernel computes it in 1024 x 1024 blocks over an 8 x 8 grid: per block the two weighted squared norms by row sums, the
   cross term by one product of the first block with the weighted second block contracted along the coordinates (its
   operands narrowed to bf16, which on the extended reals is the identity), then exp (0 - ((a + b) - 2 * c)).
   The reference computes the same expression on whole arrays: the two norms by sums from 0, the cross term by one
   contraction, then exp of the negation. Both sides multiply and add in the same order, so they are the same function
   of the arguments place by place; the only laws used are 0 + s = s and 0 - s = -s on the extended reals, and the
   finiteness of the inputs is never needed.
   The frames of the two kernel programs are the generated ones; the reference's frame is its generated run with the
   result dropped; no rewrite was applied by the idealization, so nothing is to be preserved. -/
import proofs.«160034_j65481071398073_1_alg».proof.Defs
import proofs.«160034_j65481071398073_1_alg».proof.Proof.Gen.Kernel
import proofs.«160034_j65481071398073_1_alg».proof.Proof.Gen.Kernel.Skeleton
import proofs.«160034_j65481071398073_1_alg».proof.Proof.Gen.Kernel.Launch
import proofs.«160034_j65481071398073_1_alg».proof.Proof.Gen.Kernel.Points
import proofs.«160034_j65481071398073_1_alg».proof.Proof.Gen.Kernel.Frame
import proofs.«160034_j65481071398073_1_alg».proof.Proof.Gen.KernelIdeal
import proofs.«160034_j65481071398073_1_alg».proof.Proof.Gen.KernelIdeal.Skeleton
import proofs.«160034_j65481071398073_1_alg».proof.Proof.Gen.KernelIdeal.Launch
import proofs.«160034_j65481071398073_1_alg».proof.Proof.Gen.KernelIdeal.Points
import proofs.«160034_j65481071398073_1_alg».proof.Proof.Gen.KernelIdeal.Frame
import proofs.«160034_j65481071398073_1_alg».proof.Proof.Gen.ReferenceIdeal
import proofs.«160034_j65481071398073_1_alg».proof.Proof.Gen.Pre_finite_inputs
import proofs.«160034_j65481071398073_1_alg».proof.Proof.Gen.KernelIdeal.Value
import proofs.«160034_j65481071398073_1_alg».proof.Proof.Gen.ReferenceIdeal.Run
import proofs.«160034_j65481071398073_1_alg».proof.Proof.Gen.ReferenceIdeal.Read
import proofs.«160034_j65481071398073_1_alg».proof.Proof.WholeMatrix
import proofs.«160034_j65481071398073_1_alg».proof.Proof.RefEntry
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's last stage, as a whole array, is the matrix of entries of its arguments: place by place both are the
    entry for the place's row of the first array and its column's row of the second. -/
theorem reference_is_gram (X Y : Cert.ReferenceIdeal.S8192x64.Idx → EReal) (g : Cert.ReferenceIdeal.S64.Idx → EReal) :
    Cert.ReferenceIdeal.Read.val_main_v23 (F := Ideal) X Y g = Cert.KernelIdeal.WholeMatrix.gram X Y g := by
  funext i
  obtain ⟨a, b, rfl⟩ : ∃ (a : Fin 8192) (b : Fin 8192), i = ix2 a b := ⟨i 0, i 1, eq_ix2 i⟩
  rw [Cert.ReferenceIdeal.RefEntry.result_apply, Cert.KernelIdeal.WholeMatrix.gram_apply]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the result array at the matrix of entries of
    the arguments: the kernel's by the blocks covering the array, the reference's by its stages read place by place. -/
theorem algebraic : Cert.algebraic_KernelIdeal_ReferenceIdeal := by
  intro m ρ m' ρ' _ hagree
  refine ⟨_, Cert.KernelIdeal.WholeMatrix.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, reference_is_gram, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
